-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S4096x2048 : Shape := ⟨2, ![4096, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4x2048x2048 .f32) (main_arg1 : FVec F S4096x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4x2048x2048 : Shape := ⟨3, ![4, 2048, 2048]⟩
abbrev S4096x2048 : Shape := ⟨2, ![4096, 2048]⟩
abbrev S2048x4096 : Shape := ⟨2, ![2048, 4096]⟩
abbrev S2048x1 : Shape := ⟨2, ![2048, 1]⟩
abbrev S2048x4095 : Shape := ⟨2, ![2048, 4095]⟩
abbrev S1x4096 : Shape := ⟨2, ![1, 4096]⟩
abbrev S2047x4096 : Shape := ⟨2, ![2047, 4096]⟩
abbrev S2048x2 : Shape := ⟨2, ![2048, 2]⟩
abbrev S2048x4094 : Shape := ⟨2, ![2048, 4094]⟩
abbrev S2x4096 : Shape := ⟨2, ![2, 4096]⟩
abbrev S2046x4096 : Shape := ⟨2, ![2046, 4096]⟩
abbrev S2048x3 : Shape := ⟨2, ![2048, 3]⟩
abbrev S2048x4093 : Shape := ⟨2, ![2048, 4093]⟩
abbrev S3x4096 : Shape := ⟨2, ![3, 4096]⟩
abbrev S2045x4096 : Shape := ⟨2, ![2045, 4096]⟩
abbrev S2048x4 : Shape := ⟨2, ![2048, 4]⟩
abbrev S2048x4092 : Shape := ⟨2, ![2048, 4092]⟩
abbrev S4x4096 : Shape := ⟨2, ![4, 4096]⟩
abbrev S2044x4096 : Shape := ⟨2, ![2044, 4096]⟩
abbrev S2048x5 : Shape := ⟨2, ![2048, 5]⟩
abbrev S2048x4091 : Shape := ⟨2, ![2048, 4091]⟩
abbrev S5x4096 : Shape := ⟨2, ![5, 4096]⟩
abbrev S2043x4096 : Shape := ⟨2, ![2043, 4096]⟩
abbrev S8192x2048 : Shape := ⟨2, ![8192, 2048]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩
abbrev S4x2048x4096 : Shape := ⟨3, ![4, 2048, 4096]⟩

abbrev nBuf : Space → Nat
  | .hbm => 52
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S4096x2048, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1, .f32⟩
  | .hbm, ⟨8, _⟩ => ⟨S2048x4095, .f32⟩
  | .hbm, ⟨9, _⟩ => ⟨S2048x4096, .f32⟩
  | .hbm, ⟨10, _⟩ => ⟨S2048x4096, .f32⟩
  | .hbm, ⟨11, _⟩ => ⟨S1x4096, .f32⟩
  | .hbm, ⟨12, _⟩ => ⟨S2047x4096, .f32⟩
  | .hbm, ⟨13, _⟩ => ⟨S2048x4096, .f32⟩
  | .hbm, ⟨14, _⟩ => ⟨S2048x4096, .f32⟩
  | .hbm, ⟨15, _⟩ => ⟨S2048x2, .f32⟩
  | .hbm, ⟨16, _⟩ => ⟨S2048x4094, .f32⟩
  | .hbm, ⟨17, _⟩ => ⟨S2048x4096, .f32⟩
  | .hbm, ⟨18, _⟩ => ⟨S2048x4096, .f32⟩
  | .hbm, ⟨19, _⟩ => ⟨S2x4096, .f32⟩
  | .hbm, ⟨20, _⟩ => ⟨S2046x4096, .f32⟩
  | .hbm, ⟨21, _⟩ => ⟨S2048x4096, .f32⟩
  | .hbm, ⟨22, _⟩ => ⟨S2048x4096, .f32⟩
  | .hbm, ⟨23, _⟩ => ⟨S2048x3, .f32⟩
  | .hbm, ⟨24, _⟩ => ⟨S2048x4093, .f32⟩
  | .hbm, ⟨25, _⟩ => ⟨S2048x4096, .f32⟩
  | .hbm, ⟨26, _⟩ => ⟨S2048x4096, .f32⟩
  | .hbm, ⟨27, _⟩ => ⟨S3x4096, .f32⟩
  | .hbm, ⟨28, _⟩ => ⟨S2045x4096, .f32⟩
  | .hbm, ⟨29, _⟩ => ⟨S2048x4096, .f32⟩
  | .hbm, ⟨30, _⟩ => ⟨S2048x4096, .f32⟩
  | .hbm, ⟨31, _⟩ => ⟨S2048x4, .f32⟩
  | .hbm, ⟨32, _⟩ => ⟨S2048x4092, .f32⟩
  | .hbm, ⟨33, _⟩ => ⟨S2048x4096, .f32⟩
  | .hbm, ⟨34, _⟩ => ⟨S2048x4096, .f32⟩
  | .hbm, ⟨35, _⟩ => ⟨S4x4096, .f32⟩
  | .hbm, ⟨36, _⟩ => ⟨S2044x4096, .f32⟩
  | .hbm, ⟨37, _⟩ => ⟨S2048x4096, .f32⟩
  | .hbm, ⟨38, _⟩ => ⟨S2048x4096, .f32⟩
  | .hbm, ⟨39, _⟩ => ⟨S2048x5, .f32⟩
  | .hbm, ⟨40, _⟩ => ⟨S2048x4091, .f32⟩
  | .hbm, ⟨41, _⟩ => ⟨S2048x4096, .f32⟩
  | .hbm, ⟨42, _⟩ => ⟨S2048x4096, .f32⟩
  | .hbm, ⟨43, _⟩ => ⟨S5x4096, .f32⟩
  | .hbm, ⟨44, _⟩ => ⟨S2043x4096, .f32⟩
  | .hbm, ⟨45, _⟩ => ⟨S2048x4096, .f32⟩
  | .hbm, ⟨46, _⟩ => ⟨S2048x4096, .f32⟩
  | .hbm, ⟨47, _⟩ => ⟨S8192x2048, .f32⟩
  | .hbm, ⟨48, _⟩ => ⟨S8192x2048, .bf16⟩
  | .hbm, ⟨49, _⟩ => ⟨S2048x4096, .bf16⟩
  | .hbm, ⟨50, _⟩ => ⟨S8192x4096, .f32⟩
  | .hbm, ⟨51, _⟩ => ⟨S4x2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call2_v0 : Ref sig .tc := ⟨.hbm, 7, rfl⟩
abbrev main_call2_v1 : Ref sig .tc := ⟨.hbm, 8, rfl⟩
abbrev main_v5 : Ref sig .tc := ⟨.hbm, 9, rfl⟩
abbrev main_v6 : Ref sig .tc := ⟨.hbm, 10, rfl⟩
abbrev main_call3_v0 : Ref sig .tc := ⟨.hbm, 11, rfl⟩
abbrev main_call3_v1 : Ref sig .tc := ⟨.hbm, 12, rfl⟩
abbrev main_v7 : Ref sig .tc := ⟨.hbm, 13, rfl⟩
abbrev main_v8 : Ref sig .tc := ⟨.hbm, 14, rfl⟩
abbrev main_call4_v0 : Ref sig .tc := ⟨.hbm, 15, rfl⟩
abbrev main_call4_v1 : Ref sig .tc := ⟨.hbm, 16, rfl⟩
abbrev main_v9 : Ref sig .tc := ⟨.hbm, 17, rfl⟩
abbrev main_v10 : Ref sig .tc := ⟨.hbm, 18, rfl⟩
abbrev main_call5_v0 : Ref sig .tc := ⟨.hbm, 19, rfl⟩
abbrev main_call5_v1 : Ref sig .tc := ⟨.hbm, 20, rfl⟩
abbrev main_v11 : Ref sig .tc := ⟨.hbm, 21, rfl⟩
abbrev main_v12 : Ref sig .tc := ⟨.hbm, 22, rfl⟩
abbrev main_call6_v0 : Ref sig .tc := ⟨.hbm, 23, rfl⟩
abbrev main_call6_v1 : Ref sig .tc := ⟨.hbm, 24, rfl⟩
abbrev main_v13 : Ref sig .tc := ⟨.hbm, 25, rfl⟩
abbrev main_v14 : Ref sig .tc := ⟨.hbm, 26, rfl⟩
abbrev main_call7_v0 : Ref sig .tc := ⟨.hbm, 27, rfl⟩
abbrev main_call7_v1 : Ref sig .tc := ⟨.hbm, 28, rfl⟩
abbrev main_v15 : Ref sig .tc := ⟨.hbm, 29, rfl⟩
abbrev main_v16 : Ref sig .tc := ⟨.hbm, 30, rfl⟩
abbrev main_call8_v0 : Ref sig .tc := ⟨.hbm, 31, rfl⟩
abbrev main_call8_v1 : Ref sig .tc := ⟨.hbm, 32, rfl⟩
abbrev main_v17 : Ref sig .tc := ⟨.hbm, 33, rfl⟩
abbrev main_v18 : Ref sig .tc := ⟨.hbm, 34, rfl⟩
abbrev main_call9_v0 : Ref sig .tc := ⟨.hbm, 35, rfl⟩
abbrev main_call9_v1 : Ref sig .tc := ⟨.hbm, 36, rfl⟩
abbrev main_v19 : Ref sig .tc := ⟨.hbm, 37, rfl⟩
abbrev main_v20 : Ref sig .tc := ⟨.hbm, 38, rfl⟩
abbrev main_call10_v0 : Ref sig .tc := ⟨.hbm, 39, rfl⟩
abbrev main_call10_v1 : Ref sig .tc := ⟨.hbm, 40, rfl⟩
abbrev main_v21 : Ref sig .tc := ⟨.hbm, 41, rfl⟩
abbrev main_v22 : Ref sig .tc := ⟨.hbm, 42, rfl⟩
abbrev main_call11_v0 : Ref sig .tc := ⟨.hbm, 43, rfl⟩
abbrev main_call11_v1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4096x2048_S2048x4096_1_0 : S4096x2048.Transposes [1, 0] S2048x4096
  slices_S2048x4096_S2048x1_0_4095 : S2048x4096.Slices ![0, 4095] S2048x1
  slices_S2048x4096_S2048x4095_0_0 : S2048x4096.Slices ![0, 0] S2048x4095
  concatenates_S2048x1_S2048x4095_S2048x4096_d1 : Shape.Concatenates [S2048x1, S2048x4095] S2048x4096 1
  slices_S2048x4096_S1x4096_2047_0 : S2048x4096.Slices ![2047, 0] S1x4096
  slices_S2048x4096_S2047x4096_0_0 : S2048x4096.Slices ![0, 0] S2047x4096
  concatenates_S1x4096_S2047x4096_S2048x4096_d0 : Shape.Concatenates [S1x4096, S2047x4096] S2048x4096 0
  slices_S2048x4096_S2048x2_0_4094 : S2048x4096.Slices ![0, 4094] S2048x2
  slices_S2048x4096_S2048x4094_0_0 : S2048x4096.Slices ![0, 0] S2048x4094
  concatenates_S2048x2_S2048x4094_S2048x4096_d1 : Shape.Concatenates [S2048x2, S2048x4094] S2048x4096 1
  slices_S2048x4096_S2x4096_2046_0 : S2048x4096.Slices ![2046, 0] S2x4096
  slices_S2048x4096_S2046x4096_0_0 : S2048x4096.Slices ![0, 0] S2046x4096
  concatenates_S2x4096_S2046x4096_S2048x4096_d0 : Shape.Concatenates [S2x4096, S2046x4096] S2048x4096 0
  slices_S2048x4096_S2048x3_0_4093 : S2048x4096.Slices ![0, 4093] S2048x3
  slices_S2048x4096_S2048x4093_0_0 : S2048x4096.Slices ![0, 0] S2048x4093
  concatenates_S2048x3_S2048x4093_S2048x4096_d1 : Shape.Concatenates [S2048x3, S2048x4093] S2048x4096 1
  slices_S2048x4096_S3x4096_2045_0 : S2048x4096.Slices ![2045, 0] S3x4096
  slices_S2048x4096_S2045x4096_0_0 : S2048x4096.Slices ![0, 0] S2045x4096
  concatenates_S3x4096_S2045x4096_S2048x4096_d0 : Shape.Concatenates [S3x4096, S2045x4096] S2048x4096 0
  slices_S2048x4096_S2048x4_0_4092 : S2048x4096.Slices ![0, 4092] S2048x4
  slices_S2048x4096_S2048x4092_0_0 : S2048x4096.Slices ![0, 0] S2048x4092
  concatenates_S2048x4_S2048x4092_S2048x4096_d1 : Shape.Concatenates [S2048x4, S2048x4092] S2048x4096 1
  slices_S2048x4096_S4x4096_2044_0 : S2048x4096.Slices ![2044, 0] S4x4096
  slices_S2048x4096_S2044x4096_0_0 : S2048x4096.Slices ![0, 0] S2044x4096
  concatenates_S4x4096_S2044x4096_S2048x4096_d0 : Shape.Concatenates [S4x4096, S2044x4096] S2048x4096 0
  slices_S2048x4096_S2048x5_0_4091 : S2048x4096.Slices ![0, 4091] S2048x5
  slices_S2048x4096_S2048x4091_0_0 : S2048x4096.Slices ![0, 0] S2048x4091
  concatenates_S2048x5_S2048x4091_S2048x4096_d1 : Shape.Concatenates [S2048x5, S2048x4091] S2048x4096 1
  slices_S2048x4096_S5x4096_2043_0 : S2048x4096.Slices ![2043, 0] S5x4096
  slices_S2048x4096_S2043x4096_0_0 : S2048x4096.Slices ![0, 0] S2043x4096
  concatenates_S5x4096_S2043x4096_S2048x4096_d0 : Shape.Concatenates [S5x4096, S2043x4096] S2048x4096 0
  shapeCasts_S4x2048x2048_S8192x2048 : S4x2048x2048.ShapeCasts S8192x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S8192x4096_S4x2048x4096 : S8192x4096.ShapeCasts S4x2048x4096
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x4096.size a
  hwx0_1 : ∀ i : grid0.Coords, EltTy.bits .bf16 = 32 ∨ (Rect.block (s := S2048x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v26) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S4096x2048 : Shape := ⟨2, ![4096, 2048]⟩
abbrev S2048x4096 : Shape := ⟨2, ![2048, 4096]⟩
abbrev S2048x1 : Shape := ⟨2, ![2048, 1]⟩
abbrev S2048x4095 : Shape := ⟨2, ![2048, 4095]⟩
abbrev S1x4096 : Shape := ⟨2, ![1, 4096]⟩
abbrev S2047x4096 : Shape := ⟨2, ![2047, 4096]⟩
abbrev S2048x2 : Shape := ⟨2, ![2048, 2]⟩
abbrev S2048x4094 : Shape := ⟨2, ![2048, 4094]⟩
abbrev S2x4096 : Shape := ⟨2, ![2, 4096]⟩
abbrev S2046x4096 : Shape := ⟨2, ![2046, 4096]⟩
abbrev S2048x3 : Shape := ⟨2, ![2048, 3]⟩
abbrev S2048x4093 : Shape := ⟨2, ![2048, 4093]⟩
abbrev S3x4096 : Shape := ⟨2, ![3, 4096]⟩
abbrev S2045x4096 : Shape := ⟨2, ![2045, 4096]⟩
abbrev S2048x4 : Shape := ⟨2, ![2048, 4]⟩
abbrev S2048x4092 : Shape := ⟨2, ![2048, 4092]⟩
abbrev S4x4096 : Shape := ⟨2, ![4, 4096]⟩
abbrev S2044x4096 : Shape := ⟨2, ![2044, 4096]⟩
abbrev S2048x5 : Shape := ⟨2, ![2048, 5]⟩
abbrev S2048x4091 : Shape := ⟨2, ![2048, 4091]⟩
abbrev S5x4096 : Shape := ⟨2, ![5, 4096]⟩
abbrev S2043x4096 : Shape := ⟨2, ![2043, 4096]⟩
abbrev S4x2048x4096 : Shape := ⟨3, ![4, 2048, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4096x2048, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1, .f32⟩
  | .hbm, ⟨8, _⟩ => ⟨S2048x4095, .f32⟩
  | .hbm, ⟨9, _⟩ => ⟨S2048x4096, .f32⟩
  | .hbm, ⟨10, _⟩ => ⟨S2048x4096, .f32⟩
  | .hbm, ⟨11, _⟩ => ⟨S1x4096, .f32⟩
  | .hbm, ⟨12, _⟩ => ⟨S2047x4096, .f32⟩
  | .hbm, ⟨13, _⟩ => ⟨S2048x4096, .f32⟩
  | .hbm, ⟨14, _⟩ => ⟨S2048x4096, .f32⟩
  | .hbm, ⟨15, _⟩ => ⟨S2048x2, .f32⟩
  | .hbm, ⟨16, _⟩ => ⟨S2048x4094, .f32⟩
  | .hbm, ⟨17, _⟩ => ⟨S2048x4096, .f32⟩
  | .hbm, ⟨18, _⟩ => ⟨S2048x4096, .f32⟩
  | .hbm, ⟨19, _⟩ => ⟨S2x4096, .f32⟩
  | .hbm, ⟨20, _⟩ => ⟨S2046x4096, .f32⟩
  | .hbm, ⟨21, _⟩ => ⟨S2048x4096, .f32⟩
  | .hbm, ⟨22, _⟩ => ⟨S2048x4096, .f32⟩
  | .hbm, ⟨23, _⟩ => ⟨S2048x3, .f32⟩
  | .hbm, ⟨24, _⟩ => ⟨S2048x4093, .f32⟩
  | .hbm, ⟨25, _⟩ => ⟨S2048x4096, .f32⟩
  | .hbm, ⟨26, _⟩ => ⟨S2048x4096, .f32⟩
  | .hbm, ⟨27, _⟩ => ⟨S3x4096, .f32⟩
  | .hbm, ⟨28, _⟩ => ⟨S2045x4096, .f32⟩
  | .hbm, ⟨29, _⟩ => ⟨S2048x4096, .f32⟩
  | .hbm, ⟨30, _⟩ => ⟨S2048x4096, .f32⟩
  | .hbm, ⟨31, _⟩ => ⟨S2048x4, .f32⟩
  | .hbm, ⟨32, _⟩ => ⟨S2048x4092, .f32⟩
  | .hbm, ⟨33, _⟩ => ⟨S2048x4096, .f32⟩
  | .hbm, ⟨34, _⟩ => ⟨S2048x4096, .f32⟩
  | .hbm, ⟨35, _⟩ => ⟨S4x4096, .f32⟩
  | .hbm, ⟨36, _⟩ => ⟨S2044x4096, .f32⟩
  | .hbm, ⟨37, _⟩ => ⟨S2048x4096, .f32⟩
  | .hbm, ⟨38, _⟩ => ⟨S2048x4096, .f32⟩
  | .hbm, ⟨39, _⟩ => ⟨S2048x5, .f32⟩
  | .hbm, ⟨40, _⟩ => ⟨S2048x4091, .f32⟩
  | .hbm, ⟨41, _⟩ => ⟨S2048x4096, .f32⟩
  | .hbm, ⟨42, _⟩ => ⟨S2048x4096, .f32⟩
  | .hbm, ⟨43, _⟩ => ⟨S5x4096, .f32⟩
  | .hbm, ⟨44, _⟩ => ⟨S2043x4096, .f32⟩
  | .hbm, ⟨45, _⟩ => ⟨S2048x4096, .f32⟩
  | .hbm, ⟨46, _⟩ => ⟨S2048x4096, .f32⟩
  | .hbm, ⟨47, _⟩ => ⟨S4x2048x4096, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call2_v0 : Ref sig .tc := ⟨.hbm, 7, rfl⟩
abbrev main_call2_v1 : Ref sig .tc := ⟨.hbm, 8, rfl⟩
abbrev main_v5 : Ref sig .tc := ⟨.hbm, 9, rfl⟩
abbrev main_v6 : Ref sig .tc := ⟨.hbm, 10, rfl⟩
abbrev main_call3_v0 : Ref sig .tc := ⟨.hbm, 11, rfl⟩
abbrev main_call3_v1 : Ref sig .tc := ⟨.hbm, 12, rfl⟩
abbrev main_v7 : Ref sig .tc := ⟨.hbm, 13, rfl⟩
abbrev main_v8 : Ref sig .tc := ⟨.hbm, 14, rfl⟩
abbrev main_call4_v0 : Ref sig .tc := ⟨.hbm, 15, rfl⟩
abbrev main_call4_v1 : Ref sig .tc := ⟨.hbm, 16, rfl⟩
abbrev main_v9 : Ref sig .tc := ⟨.hbm, 17, rfl⟩
abbrev main_v10 : Ref sig .tc := ⟨.hbm, 18, rfl⟩
abbrev main_call5_v0 : Ref sig .tc := ⟨.hbm, 19, rfl⟩
abbrev main_call5_v1 : Ref sig .tc := ⟨.hbm, 20, rfl⟩
abbrev main_v11 : Ref sig .tc := ⟨.hbm, 21, rfl⟩
abbrev main_v12 : Ref sig .tc := ⟨.hbm, 22, rfl⟩
abbrev main_call6_v0 : Ref sig .tc := ⟨.hbm, 23, rfl⟩
abbrev main_call6_v1 : Ref sig .tc := ⟨.hbm, 24, rfl⟩
abbrev main_v13 : Ref sig .tc := ⟨.hbm, 25, rfl⟩
abbrev main_v14 : Ref sig .tc := ⟨.hbm, 26, rfl⟩
abbrev main_call7_v0 : Ref sig .tc := ⟨.hbm, 27, rfl⟩
abbrev main_call7_v1 : Ref sig .tc := ⟨.hbm, 28, rfl⟩
abbrev main_v15 : Ref sig .tc := ⟨.hbm, 29, rfl⟩
abbrev main_v16 : Ref sig .tc := ⟨.hbm, 30, rfl⟩
abbrev main_call8_v0 : Ref sig .tc := ⟨.hbm, 31, rfl⟩
abbrev main_call8_v1 : Ref sig .tc := ⟨.hbm, 32, rfl⟩
abbrev main_v17 : Ref sig .tc := ⟨.hbm, 33, rfl⟩
abbrev main_v18 : Ref sig .tc := ⟨.hbm, 34, rfl⟩
abbrev main_call9_v0 : Ref sig .tc := ⟨.hbm, 35, rfl⟩
abbrev main_call9_v1 : Ref sig .tc := ⟨.hbm, 36, rfl⟩
abbrev main_v19 : Ref sig .tc := ⟨.hbm, 37, rfl⟩
abbrev main_v20 : Ref sig .tc := ⟨.hbm, 38, rfl⟩
abbrev main_call10_v0 : Ref sig .tc := ⟨.hbm, 39, rfl⟩
abbrev main_call10_v1 : Ref sig .tc := ⟨.hbm, 40, rfl⟩
abbrev main_v21 : Ref sig .tc := ⟨.hbm, 41, rfl⟩
abbrev main_v22 : Ref sig .tc := ⟨.hbm, 42, rfl⟩
abbrev main_call11_v0 : Ref sig .tc := ⟨.hbm, 43, rfl⟩
abbrev main_call11_v1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]

class Facts₀ : Prop where
  transposes_S4096x2048_S2048x4096_1_0 : S4096x2048.Transposes [1, 0] S2048x4096
  slices_S2048x4096_S2048x1_0_4095 : S2048x4096.Slices ![0, 4095] S2048x1
  slices_S2048x4096_S2048x4095_0_0 : S2048x4096.Slices ![0, 0] S2048x4095
  concatenates_S2048x1_S2048x4095_S2048x4096_d1 : Shape.Concatenates [S2048x1, S2048x4095] S2048x4096 1
  slices_S2048x4096_S1x4096_2047_0 : S2048x4096.Slices ![2047, 0] S1x4096
  slices_S2048x4096_S2047x4096_0_0 : S2048x4096.Slices ![0, 0] S2047x4096
  concatenates_S1x4096_S2047x4096_S2048x4096_d0 : Shape.Concatenates [S1x4096, S2047x4096] S2048x4096 0
  slices_S2048x4096_S2048x2_0_4094 : S2048x4096.Slices ![0, 4094] S2048x2
  slices_S2048x4096_S2048x4094_0_0 : S2048x4096.Slices ![0, 0] S2048x4094
  concatenates_S2048x2_S2048x4094_S2048x4096_d1 : Shape.Concatenates [S2048x2, S2048x4094] S2048x4096 1
  slices_S2048x4096_S2x4096_2046_0 : S2048x4096.Slices ![2046, 0] S2x4096
  slices_S2048x4096_S2046x4096_0_0 : S2048x4096.Slices ![0, 0] S2046x4096
  concatenates_S2x4096_S2046x4096_S2048x4096_d0 : Shape.Concatenates [S2x4096, S2046x4096] S2048x4096 0
  slices_S2048x4096_S2048x3_0_4093 : S2048x4096.Slices ![0, 4093] S2048x3
  slices_S2048x4096_S2048x4093_0_0 : S2048x4096.Slices ![0, 0] S2048x4093
  concatenates_S2048x3_S2048x4093_S2048x4096_d1 : Shape.Concatenates [S2048x3, S2048x4093] S2048x4096 1
  slices_S2048x4096_S3x4096_2045_0 : S2048x4096.Slices ![2045, 0] S3x4096
  slices_S2048x4096_S2045x4096_0_0 : S2048x4096.Slices ![0, 0] S2045x4096
  concatenates_S3x4096_S2045x4096_S2048x4096_d0 : Shape.Concatenates [S3x4096, S2045x4096] S2048x4096 0
  slices_S2048x4096_S2048x4_0_4092 : S2048x4096.Slices ![0, 4092] S2048x4
  slices_S2048x4096_S2048x4092_0_0 : S2048x4096.Slices ![0, 0] S2048x4092
  concatenates_S2048x4_S2048x4092_S2048x4096_d1 : Shape.Concatenates [S2048x4, S2048x4092] S2048x4096 1
  slices_S2048x4096_S4x4096_2044_0 : S2048x4096.Slices ![2044, 0] S4x4096
  slices_S2048x4096_S2044x4096_0_0 : S2048x4096.Slices ![0, 0] S2044x4096
  concatenates_S4x4096_S2044x4096_S2048x4096_d0 : Shape.Concatenates [S4x4096, S2044x4096] S2048x4096 0
  slices_S2048x4096_S2048x5_0_4091 : S2048x4096.Slices ![0, 4091] S2048x5
  slices_S2048x4096_S2048x4091_0_0 : S2048x4096.Slices ![0, 0] S2048x4091
  concatenates_S2048x5_S2048x4091_S2048x4096_d1 : Shape.Concatenates [S2048x5, S2048x4091] S2048x4096 1
  slices_S2048x4096_S5x4096_2043_0 : S2048x4096.Slices ![2043, 0] S5x4096
  slices_S2048x4096_S2043x4096_0_0 : S2048x4096.Slices ![0, 0] S2043x4096
  concatenates_S5x4096_S2043x4096_S2048x4096_d0 : Shape.Concatenates [S5x4096, S2043x4096] S2048x4096 0
  dot_S4x2048x2048_S2048x4096_S4x2048x4096_2_0_01_1_n_n_wf : DotDims.WF S4x2048x2048 S2048x4096 S4x2048x4096 [2] [0] [0, 1] [1] [] []

variable [Facts₀]

def dot_S4x2048x2048_S2048x4096_S4x2048x4096_2_0_01_1_n_n : DotDims S4x2048x2048 S2048x4096 S4x2048x4096 where
  lhsContracting := [2]
  rhsContracting := [0]
  lhsNonContracting := [0, 1]
  rhsNonContracting := [1]
  lhsBatch := []
  rhsBatch := []
  wf := dot_S4x2048x2048_S2048x4096_S4x2048x4096_2_0_01_1_n_n_wf

class Facts : Prop extends Facts₀ where

variable [Facts]
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.Spec.lean ====
/-
  The value both programs compute, as one function of the activations and of the combined weight.

  The activations are `x : [4, 2048, 2048]`, the combined weight is `w : [2048, 4096]` (a sum of re-arrangements of the
  transposed weight; the same re-arrangements in both programs, so it stays one opaque array here). The result is
  `out[b, s, o] = ∑ k, x[b, s, k] · w[k, o]`. The kernel computes it on the activations flattened to `[8192, 2048]`,
  row `b · 2048 + s`, in 1024 × 1024 tiles of the output each contracting the whole `k` axis; the reference contracts
  the last axis of `x` against the first of `w` directly. Both are the same finite sum, term by term, so no law of
  the extended reals beyond the equality of the summands is needed.
-/
import Idealize.ShloMosaic.PureOps.Ideal.Laws
import Idealize.ShloMosaic.Lib.ValueIdx

noncomputable section

open scoped BigOperators

namespace Cert.GemmSpec

open Idealize.ShloMosaic Idealize.ShloMosaic.ValueIdx

/-- The product of the flattened activations `a : [8192, 2048]` with the weight `b : [2048, 4096]`. -/
def flatProd (a : (⟨2, ![8192, 2048]⟩ : Shape).Idx → EReal) (b : (⟨2, ![2048, 4096]⟩ : Shape).Idx → EReal) :
    (⟨2, ![8192, 4096]⟩ : Shape).Idx → EReal :=
  fun j => ∑ k : Fin 2048, a (ix2 (j 0) k) * b (ix2 k (j 1))

/-- The batched product `out[b, s, o] = ∑ k, x[b, s, k] · w[k, o]`. -/
def batchProd (x : (⟨3, ![4, 2048, 2048]⟩ : Shape).Idx → EReal) (w : (⟨2, ![2048, 4096]⟩ : Shape).Idx → EReal) :
    (⟨3, ![4, 2048, 4096]⟩ : Shape).Idx → EReal :=
  fun i => ∑ k : Fin 2048, x (ix3 (i 0) (i 1) k) * w (ix2 k (i 2))

/-- Row `b · 2048 + s` of the flattened product is row `(b, s)` of the batched one, when the flattened activations
    hold `x[b, s, ·]` in that row. -/
theorem flatProd_row (x : (⟨3, ![4, 2048, 2048]⟩ : Shape).Idx → EReal) (w : (⟨2, ![2048, 4096]⟩ : Shape).Idx → EReal)
    (a : (⟨2, ![8192, 2048]⟩ : Shape).Idx → EReal)
    (ha : ∀ (r : Fin 8192) (b : Fin 4) (s : Fin 2048) (k : Fin 2048), r.val = b.val * 2048 + s.val → a (ix2 r k) = x (ix3 b s k))
    (i : (⟨3, ![4, 2048, 4096]⟩ : Shape).Idx) (j : (⟨2, ![8192, 4096]⟩ : Shape).Idx)
    (h0 : (j 0).val = (i 0).val * 2048 + (i 1).val) (h1 : (j 1).val = (i 2).val) :
    flatProd a w j = batchProd x w i := by
  unfold flatProd batchProd
  refine Finset.sum_congr rfl fun k _ => ?_
  rw [ha (j 0) (i 0) (i 1) k h0]
  have e : (j 1) = (i 2) := Fin.ext h1
  rw [e]

end Cert.GemmSpec

end
-- ==== Proof.KernelBlock.lean ====
/-
  One output tile of the kernel, and the whole flattened product.

  At grid point `t = (i, j)` the body loads rows `1024·i …` of the flattened activations (all 2048 columns) and columns
  `1024·j …` of the weight (all 2048 rows), multiplies them into a zero accumulator and stores the 1024 × 1024 tile. Entry
  `(p, q)` of the tile is `∑ k, A[1024·i + p, k] · B[k, 1024·j + q]`: the tile is the restriction of ONE function of the
  two arrays, the flattened product, to the tile's rows and columns. The 8 × 4 tiles cover the `[8192, 4096]` output.
-/
import proofs.«139260_j85641647882598_1_alg».proof.Proof.Gen.KernelIdeal.Frame
import proofs.«139260_j85641647882598_1_alg».proof.Proof.LibMatmulAt
import proofs.«139260_j85641647882598_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Tile

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- Entry `(p, q)` of the body's product of a row block with a column block: the row of the first against the column
    of the second, over the whole contracted axis. -/
theorem tile_entry (x0 : Vec Ideal S1024x2048 .bf16) (x1 : Vec Ideal S2048x1024 .bf16) (p q : Fin 1024) :
    k0_pay1 (F := Ideal) x0 x1 (ix2 p q) = ∑ k : Fin 2048, x0 (ix2 p k) * x1 (ix2 k q) := by
  unfold k0_pay1
  rw [shapeCast_self, shapeCast_self]
  exact Cert.LibMatmulAt.matmul_zero_at dot_S1024x2048_S2048x1024_S1024x1024_1_0_0_1_n_n rfl rfl rfl rfl rfl rfl none x0 x1 p q

/-- The block index maps over the grid: the activations' block follows the output's row block and takes the whole
    contracted axis, the weight's block takes the whole contracted axis and follows the output's column block. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 7 ∧ win0_2.index t (1 : Fin 2) ≤ 3 :=
  (by decide +kernel : ∀ t : Fin grid0.N, _)

/-- Every tile of the 8 × 4 tiling is some point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- What point `t` writes back is tile `t` of the flattened product of the two arrays the region finds. -/
theorem flushed_eq (c : Dev nD) (t : Fin cfg0.N) :
    (dats m 0 c).flushed 2 t
      = ((cfg0.win 2).blk t).view.read (Elt Ideal) (Cert.GemmSpec.flatProd (V m c main_v26) (V m c main_v27)) := by
  show (cfg0.win 2).cut (grid0.coords t) ((dats m 0 c).after 2 t) = _
  rw [after0_2]
  unfold out0_2
  rw [View.canon_unit_zero hz]
  simp only [View.ld_unit_zero (S := S1024x2048) hz, View.ld_unit_zero (S := S2048x1024) hz]
  obtain ⟨e0, e1, e2, e3, e4, e5⟩ := idx_facts t
  funext j
  obtain ⟨p, q, rfl⟩ : ∃ (p q : Fin 1024), j = ix2 p q := ⟨j 0, j 1, eq_ix2 j⟩
  show k0_pay1 (F := Ideal) (iblk m c 0 t) (iblk m c 1 t) (ix2 p q)
      = Cert.GemmSpec.flatProd (V m c main_v26) (V m c main_v27) (((cfg0.win 2).blk t).view.emb (ix2 p q))
  refine (tile_entry (iblk m c 0 t) (iblk m c 1 t) p q).trans ?_
  unfold Cert.GemmSpec.flatProd
  refine Finset.sum_congr rfl fun k _ => ?_
  have h0 : iblk m c 0 t (ix2 p k) = V m c main_v26 (ix2 ((((cfg0.win 2).blk t).view.emb (ix2 p q)) 0) k) := by
    show V m c main_v26 (((cfg0.win 0).blk t).view.emb (ix2 p k)) = _
    refine congrArg (V m c main_v26) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 2048 + 1 * k.val = k.val; omega
  have h1 : iblk m c 1 t (ix2 k q) = V m c main_v27 (ix2 k ((((cfg0.win 2).blk t).view.emb (ix2 p q)) 1)) := by
    show V m c main_v27 (((cfg0.win 1).blk t).view.emb (ix2 k q)) = _
    refine congrArg (V m c main_v27) (funext fun a => Fin.ext ?_)
    match a with
    | ⟨0, _⟩ => show win0_1.index t (0 : Fin 2) * 2048 + 1 * k.val = k.val; omega
    | ⟨1, _⟩ => show win0_1.index t (1 : Fin 2) * 1024 + 1 * q.val = win0_2.index t (1 : Fin 2) * 1024 + 1 * q.val; omega
  rw [h0, h1]

/-- An index of the output array lies in point `t`'s tile iff each coordinate lies in the tile's range on its axis. -/
theorem mem_blk (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v28).slice (win0_2.rect t)).set ↔ _
  rw [View.set_slice_whole, Rect.mem_set_unit]
  exact Iff.rfl

/-- The tiles cover the output: entry `(r, o)` lies in the tile of row block `r / 1024` and column block `o / 1024`. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The output array after the run is the flattened product of the two arrays the region finds. -/
theorem final (c : Dev nD) :
    (dats m 0 c).arrAt 2 cfg0.N = Cert.GemmSpec.flatProd (V m c main_v26) (V m c main_v27) :=
  (dats m 0 c).arrAt_eq_of_cover 2 _ (fun t _ => flushed_eq m c t) (fun i => cover i)

end Cert.KernelIdeal.Tile

end
-- ==== Proof.KernelEntry.lean ====
/-
  The two arrays the kernel's region finds.

  Before the region the program builds the combined weight from its second argument — the transposed weight plus its
  two flips plus five rolls along each axis, each roll a slice pair joined back — and rounds it to bf16, and it flattens
  its first argument to `[8192, 2048]` and rounds it to bf16. At the ideal values rounding is the identity, so the weight
  array is the combined weight itself, the very term the reference builds from the same argument, and the activations'
  array holds `x[b, s, k]` at row `b · 2048 + s`, column `k`.
-/
import proofs.«139260_j85641647882598_1_alg».proof.Proof.Gen.KernelIdeal.Frame
import proofs.«139260_j85641647882598_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Entry

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ)

set_option maxHeartbeats 2000000 in
/-- The weight array at the region's entry is the combined weight of the second argument: the same operations, in
    the same order, as the reference applies to its own second argument. -/
theorem weight_eq (c : Dev nD) :
    (V m c main_v27 : S2048x4096.Idx → EReal)
      = Cert.ReferenceIdeal.Read.val_main_v24 (F := Ideal) (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  rfl

set_option maxHeartbeats 2000000 in
/-- The activations' array at the region's entry is the first argument flattened (and rounded, which changes nothing
    at the ideal values). -/
theorem act_eq (c : Dev nD) :
    (V m c main_v26 : S8192x2048.Idx → EReal)
      = truncf (F := Ideal) .bf16 (shapeCast S8192x2048 (m ((c : Thread nD τ).loc main_arg0)) shapeCasts_S4x2048x2048_S8192x2048) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  rfl

/-- Row `b · 2048 + s` of the flattened activations holds `x[b, s, ·]`: both positions are the same row-major position. -/
theorem act_at (c : Dev nD) (r : Fin 8192) (b : Fin 4) (s : Fin 2048) (k : Fin 2048) (h : r.val = b.val * 2048 + s.val) :
    (V m c main_v26 : S8192x2048.Idx → EReal) (ix2 r k)
      = (m ((c : Thread nD τ).loc main_arg0) : S4x2048x2048.Idx → EReal) (ix3 b s k) := by
  rw [act_eq]
  show shapeCast S8192x2048 (m ((c : Thread nD τ).loc main_arg0)) shapeCasts_S4x2048x2048_S8192x2048 (ix2 r k) = _
  refine shapeCast_apply _ _ (ix2 r k) (ix3 b s k) ?_
  rw [Shape.rowMajor_val_three, Shape.rowMajor_val_two]
  show (b.val * 2048 + s.val) * 2048 + k.val = r.val * 2048 + k.val
  rw [h]

end Cert.KernelIdeal.Entry

end
-- ==== Proof.KernelRun.lean ====
/-
  The kernel's run, read: its result is the batched product of the first argument with the combined weight.

  After the region the program un-flattens the `[8192, 4096]` output to `[4, 2048, 4096]`: entry `(b, s, o)` is entry
  `(b · 2048 + s, o)` of the flattened product, whose row `b · 2048 + s` is `x[b, s, ·]` against the combined weight.
-/
import proofs.«139260_j85641647882598_1_alg».proof.Proof.KernelBlock
import proofs.«139260_j85641647882598_1_alg».proof.Proof.KernelEntry
import Idealize.ShloMosaic.Lib.StableHlo.Run

set_option maxRecDepth 16384

noncomputable section

namespace Cert.KernelIdeal.Whole

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ) (ρ : Dev nD → PrngReg)

/-- What the line after the region leaves in the result buffer. -/
theorem result_eq (c : Dev nD) :
    (Pipeline.afterTail₀ cfgs (dats m) 0 (V0 m) [hostOps1] c main_v29 : S4x2048x4096.Idx → EReal)
      = Cert.GemmSpec.batchProd (m ((c : Thread nD τ).loc main_arg0))
          (Cert.ReferenceIdeal.Read.val_main_v24 (F := Ideal) (m ((c : Thread nD τ).loc main_arg1))) := by
  unfold Pipeline.afterTail₀
  show StableHlo.after hostOps1 _ (Proc.devRef .tc main_v29) = _
  after_results
  funext i
  show shapeCast S4x2048x4096 (Pipeline.withArrays (cfgs 0).spec c (V0 m c) (fun w => (dats m 0 c).arrAt w (cfgs 0).N)
      (Proc.devRef .tc main_v28)) shapeCasts_S8192x4096_S4x2048x4096 i = _
  have hw : Pipeline.withArrays (cfgs 0).spec c (V0 m c) (fun w => (dats m 0 c).arrAt w (cfgs 0).N) (Proc.devRef .tc main_v28)
      = Cert.GemmSpec.flatProd (V m c main_v26) (V m c main_v27) :=
    (Pipeline.withArrays_arr spec0 launch0.win.arr_inj c _ _ 2).trans (Tile.final m c)
  rw [hw]
  obtain ⟨b, s, o, rfl⟩ : ∃ (b : Fin 4) (s : Fin 2048) (o : Fin 4096), i = ix3 b s o := ⟨i 0, i 1, i 2, eq_ix3 i⟩
  have hr : b.val * 2048 + s.val < 8192 := by have := b.isLt; have := s.isLt; omega
  rw [shapeCast_apply _ _ (ix3 b s o) (ix2 (⟨b.val * 2048 + s.val, hr⟩ : Fin 8192) o)
    (by rw [Shape.rowMajor_val_three, Shape.rowMajor_val_two]; rfl)]
  refine (Cert.GemmSpec.flatProd_row (m ((c : Thread nD τ).loc main_arg0)) (V m c main_v27) (V m c main_v26)
    (fun r b s k h => Entry.act_at m c r b s k h) (ix3 b s o) (ix2 (⟨b.val * 2048 + s.val, hr⟩ : Fin 8192) o) rfl rfl).trans ?_
  rw [Entry.weight_eq]

/-- Every weakly fair execution of the idealized kernel terminates with the batched product in the result buffer and
    both arguments unchanged. -/
theorem run : θ_run defs (onTc (τ := τ) (main (F := Ideal))) ⟨m, fun _ => 0, ρ⟩ fun r => ∀ c : Dev nD,
      r.2.mem ((c.tc : Thread nD τ).loc main_v29)
        = Cert.GemmSpec.batchProd (m ((c.tc : Thread nD τ).loc main_arg0))
            (Cert.ReferenceIdeal.Read.val_main_v24 (F := Ideal) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v29 (Pipeline.mem_restRefs_of main_v29 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.RefValue.lean ====
/-
  The reference's result is the batched product of its first argument with the combined weight of its second: its
  contraction pairs the last axis of the activations with the first of the weight, term by term the sum that defines
  the batched product.
-/
import proofs.«139260_j85641647882598_1_alg».proof.Proof.Gen.ReferenceIdeal.Read
import proofs.«139260_j85641647882598_1_alg».proof.Proof.Spec

noncomputable section

open scoped BigOperators

namespace Cert.ReferenceIdeal.RefValue

open Cert.ReferenceIdeal Cert.ReferenceIdeal.Read Idealize.ShloMosaic Idealize.ShloMosaic.ValueIdx

theorem contraction_eq (x : (⟨S4x2048x2048, .f32⟩ : BufTy).Contents (Elt Ideal)) (w : (⟨S4096x2048, .f32⟩ : BufTy).Contents (Elt Ideal)) :
    val_main_v25 (F := Ideal) x w = Cert.GemmSpec.batchProd x (val_main_v24 (F := Ideal) w) := by
  funext i
  rw [val_main_v25_apply]
  unfold Cert.GemmSpec.batchProd
  refine Finset.sum_congr rfl fun k _ => ?_
  have el : lidx_main_v25 i k = ix3 (i 0) (i 1) k :=
    funext fun a => Fin.ext (by match a with | ⟨0, _⟩ => rfl | ⟨1, _⟩ => rfl | ⟨2, _⟩ => rfl)
  have er : ridx_main_v25 i k = ix2 k (i 2) :=
    funext fun a => Fin.ext (by match a with | ⟨0, _⟩ => rfl | ⟨1, _⟩ => rfl)
  rw [el, er]
  rfl

end Cert.ReferenceIdeal.RefValue

end
-- ==== Proof.lean ====
/-
  The kernel flattens the activations `x : [4, 2048, 2048]` to `[8192, 2048]`, builds the combined weight
  `w : [2048, 4096]` from `W` (the transposed weight, its two flips and five rolls along each axis, summed), multiplies
  the two in 1024 × 1024 output tiles that each contract the whole inner axis, and un-flattens the result. The
  reference builds the same combined weight by the same operations and contracts `x`'s last axis against its first.
  At the ideal values (rounding to bf16 is the identity) both results are `out[b, s, o] = ∑ k, x[b, s, k] · w[k, o]`:
  the same finite sum term by term, so nothing about the extended reals beyond equality of the summands is used and the
  precondition is never opened. The frames of the two kernel programs are the generated ones; the reference's frame is
  its run with the result dropped; the ideal pass rewrote nothing, so the idealization conjunct is trivial.
-/
import proofs.«139260_j85641647882598_1_alg».proof.Defs
import proofs.«139260_j85641647882598_1_alg».proof.Proof.Gen.Kernel
import proofs.«139260_j85641647882598_1_alg».proof.Proof.Gen.Kernel.Skeleton
import proofs.«139260_j85641647882598_1_alg».proof.Proof.Gen.Kernel.Launch
import proofs.«139260_j85641647882598_1_alg».proof.Proof.Gen.Kernel.Points
import proofs.«139260_j85641647882598_1_alg».proof.Proof.Gen.Kernel.Frame
import proofs.«139260_j85641647882598_1_alg».proof.Proof.Gen.KernelIdeal
import proofs.«139260_j85641647882598_1_alg».proof.Proof.Gen.KernelIdeal.Skeleton
import proofs.«139260_j85641647882598_1_alg».proof.Proof.Gen.KernelIdeal.Launch
import proofs.«139260_j85641647882598_1_alg».proof.Proof.Gen.KernelIdeal.Points
import proofs.«139260_j85641647882598_1_alg».proof.Proof.Gen.KernelIdeal.Frame
import proofs.«139260_j85641647882598_1_alg».proof.Proof.Gen.ReferenceIdeal
import proofs.«139260_j85641647882598_1_alg».proof.Proof.Gen.Pre_finite_inputs
import proofs.«139260_j85641647882598_1_alg».proof.Proof.Gen.ReferenceIdeal.Run
import proofs.«139260_j85641647882598_1_alg».proof.Proof.Gen.ReferenceIdeal.Read
import proofs.«139260_j85641647882598_1_alg».proof.Proof.KernelRun
import proofs.«139260_j85641647882598_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => Cert.GemmSpec.batchProd (m ((c.tc : Thread Cert.KernelIdeal.nD Cert.KernelIdeal.τ).loc Cert.KernelIdeal.main_arg0))
        (Cert.ReferenceIdeal.Read.val_main_v24 (F := Ideal) (m ((c.tc : Thread Cert.KernelIdeal.nD Cert.KernelIdeal.τ).loc Cert.KernelIdeal.main_arg1))),
      Cert.KernelIdeal.Whole.run m ρ,
      (θ_run Cert.ReferenceIdeal.defs _ _).mono (fun _ h c =>
        ⟨((h c).1.trans ((Cert.ReferenceIdeal.Read.val_main_v25_eq m' c).trans (Cert.ReferenceIdeal.RefValue.contraction_eq _ _))).trans
            (by rw [(hagree c).1, (hagree c).2]),
          (h c).2⟩) (Cert.ReferenceIdeal.Value.run (F := Ideal) m' ρ')⟩⟩

end Cert.Proof

end
